-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts]

def fn {F : FTy → Type} [FloatOps F] (main_arg0 : FVec F S4096x8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  main_v3
-- ==== Kernel.lean ====
abbrev S4096x8192 : Shape := ⟨2, ![4096, 8192]⟩
abbrev S4096x1 : Shape := ⟨2, ![4096, 1]⟩
abbrev S256x8192 : Shape := ⟨2, ![256, 8192]⟩
abbrev S256x1 : Shape := ⟨2, ![256, 1]⟩
abbrev S256 : Shape := ⟨1, ![256]⟩
abbrev S4096 : Shape := ⟨1, ![4096]⟩
abbrev S_ : Shape := ⟨0, ![]⟩

abbrev nBuf : Space → Nat
  | .hbm => 13
  | .vmem => 4
  | .smem => 0
  | _ => 0

abbrev bufTy : (tb : Table) → Fin (tcTables nBuf tb) → BufTy
  | .hbm, ⟨0, _⟩ => ⟨S4096x8192, .f32⟩
  | .hbm, ⟨1, _⟩ => ⟨S4096x1, .f32⟩
  | .hbm, ⟨2, _⟩ => ⟨S4096, .f32⟩
  | .hbm, ⟨3, _⟩ => ⟨S4096, .i32⟩
  | .hbm, ⟨4, _⟩ => ⟨S_, .i32⟩
  | .hbm, ⟨5, _⟩ => ⟨S4096, .i32⟩
  | .hbm, ⟨6, _⟩ => ⟨S4096, .i1⟩
  | .hbm, ⟨7, _⟩ => ⟨S4096, .f32⟩
  | .hbm, ⟨8, _⟩ => ⟨S4096, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S256x8192, .f32⟩
  | .local _ .vmem, ⟨1, _⟩ => ⟨S256x8192, .f32⟩
  | .local _ .vmem, ⟨2, _⟩ => ⟨S256x1, .f32⟩
  | .local _ .vmem, ⟨3, _⟩ => ⟨S256x1, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S256x8192_S256x8192_0_0 : ∀ a, (![0, 0] : Fin 2 → Nat) a + S256x8192.size a ≤ S256x8192.size a
  h_S256x8192 : 0 < S256x8192.numel
  natLt_1_32 : 1 < 32
  reduces_S256x8192_S256 : S256x8192.Reduces [1] S256
  shapeCasts_S256_S256x1 : S256.ShapeCasts S256x1
  rotates_S256x8192_d1 : S256x8192.Rotates 1 none
  iota_S256x8192_d1_w32 : S256x8192.Iotas .tc 32 [1]
  broadcasts_S256x1_S256x8192 : S256x1.Broadcasts S256x8192
  inb_S256x1_S256x1_0_0 : ∀ a, (![0, 0] : Fin 2 → Nat) a + S256x1.size a ≤ S256x1.size a
  h_S256x1 : 0 < S256x1.numel
  shapeCasts_S4096x1_S4096 : S4096x1.ShapeCasts S4096
  bcast_S_S4096 : S_.BroadcastsInDim S4096 (![] : Fin 0 → Fin S4096.rank)
  reducesTo_S4096_S_d0 : S4096.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S4096x8192.size a
  hwx0_0 : ∀ i : grid0.Coords, EltTy.bits .f32 = 32 ∨ (Rect.block (s := S4096x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S4096x1.size a
  hwx0_1 : ∀ i : grid0.Coords, EltTy.bits .f32 = 32 ∨ (Rect.block (s := S4096x1) S256x1.size (cc0_transform_1 i) (hinb0_1 i)).WholeWords (EltTy.packing .f32)

variable [Facts₀]

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S_ : Shape := ⟨0, ![]⟩
abbrev S4096 : Shape := ⟨1, ![4096]⟩
abbrev S4096x8191 : Shape := ⟨2, ![4096, 8191]⟩
abbrev S8191 : Shape := ⟨1, ![8191]⟩
abbrev S1x8191 : Shape := ⟨2, ![1, 8191]⟩
abbrev S4096x1 : Shape := ⟨2, ![4096, 1]⟩

abbrev nBuf : Space → Nat
  | .hbm => 38
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S_, .f32⟩
  | .hbm, ⟨2, _⟩ => ⟨S4096x8192, .f32⟩
  | .hbm, ⟨3, _⟩ => ⟨S4096x8192, .i1⟩
  | .hbm, ⟨4, _⟩ => ⟨S4096x8192, .i32⟩
  | .hbm, ⟨5, _⟩ => ⟨S_, .i32⟩
  | .hbm, ⟨6, _⟩ => ⟨S4096, .i32⟩
  | .hbm, ⟨7, _⟩ => ⟨S4096x8191, .f32⟩
  | .hbm, ⟨8, _⟩ => ⟨S4096x8191, .f32⟩
  | .hbm, ⟨9, _⟩ => ⟨S4096x8191, .f32⟩
  | .hbm, ⟨10, _⟩ => ⟨S4096x8191, .f32⟩
  | .hbm, ⟨11, _⟩ => ⟨S8191, .i32⟩
  | .hbm, ⟨12, _⟩ => ⟨S_, .i32⟩
  | .hbm, ⟨13, _⟩ => ⟨S8191, .i32⟩
  | .hbm, ⟨14, _⟩ => ⟨S8191, .i32⟩
  | .hbm, ⟨15, _⟩ => ⟨S1x8191, .i32⟩
  | .hbm, ⟨16, _⟩ => ⟨S4096x1, .i32⟩
  | .hbm, ⟨17, _⟩ => ⟨S4096x8191, .i32⟩
  | .hbm, ⟨18, _⟩ => ⟨S4096x8191, .i32⟩
  | .hbm, ⟨19, _⟩ => ⟨S4096x8191, .i1⟩
  | .hbm, ⟨20, _⟩ => ⟨S_, .f32⟩
  | .hbm, ⟨21, _⟩ => ⟨S_, .f32⟩
  | .hbm, ⟨22, _⟩ => ⟨S4096x8191, .f32⟩
  | .hbm, ⟨23, _⟩ => ⟨S4096x8191, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S4096, .f32⟩
  | .hbm, ⟨28, _⟩ => ⟨S4096, .i32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S_S4096x8192 : S_.BroadcastsInDim S4096x8192 (![] : Fin 0 → Fin S4096x8192.rank)
  natLt_1_32 : 1 < 32
  reducesTo_S4096x8192_S4096_d1 : S4096x8192.ReducesTo [1] S4096
  h_S_ : 0 < S_.numel
  slices_S4096x8192_S4096x8191_0_1 : S4096x8192.Slices ![0, 1] S4096x8191
  slices_S4096x8192_S4096x8191_0_0 : S4096x8192.Slices ![0, 0] S4096x8191
  bcast_S_S8191 : S_.BroadcastsInDim S8191 (![] : Fin 0 → Fin S8191.rank)
  bcast_S8191_S1x8191_1 : S8191.BroadcastsInDim S1x8191 (![1] : Fin 1 → Fin S1x8191.rank)
  bcast_S4096_S4096x1_0 : S4096.BroadcastsInDim S4096x1 (![0] : Fin 1 → Fin S4096x1.rank)
  bcast_S1x8191_S4096x8191_0_1 : S1x8191.BroadcastsInDim S4096x8191 (![0, 1] : Fin 2 → Fin S4096x8191.rank)
  bcast_S4096x1_S4096x8191_0_1 : S4096x1.BroadcastsInDim S4096x8191 (![0, 1] : Fin 2 → Fin S4096x8191.rank)
  bcast_S_S4096x8191 : S_.BroadcastsInDim S4096x8191 (![] : Fin 0 → Fin S4096x8191.rank)
  reducesTo_S4096x8191_S4096_d1 : S4096x8191.ReducesTo [1] S4096
  bcast_S_S4096 : S_.BroadcastsInDim S4096 (![] : Fin 0 → Fin S4096.rank)
  reducesTo_S4096_S_d0 : S4096.ReducesTo [0] S_

variable [Facts₀]

class Facts : Prop extends Facts₀ where

variable [Facts]
-- ==== Proof.RowSpec.lean ====
/-
  One row of the consecutive-difference loss, over the extended reals.

  For a row x of 8192 entries let n be the number of its entries that are not zero. The row's loss is
      ( sum over k = 0 .. 8190 of  [k + 1 < n] * |x (k+1) - x k| ) / n,
  the quotient being the ideal division (at n = 0 its documented junk value, the same on both sides). Two programs
  spell this differently. One counts in floats, rotates the row by one lane so that lane q meets lane q - 1 (lane 0
  meets lane 8191), and multiplies every |x q - x (q-1)| by the 0/1 value of "1 <= q and q < n" before summing all 8192
  lanes: lane 0 contributes |..| * 0 = 0 and lane k + 1 contributes the k-th step. The other counts in 32-bit words,
  slices the row into x[1:] and x[:-1], and selects the step or zero by the word comparison k + 1 < n. The lemmas below
  are what joins the two: a widened flag read as an integer is 0 or 1; the float count and the word count are both n
  (n <= 8192, far from wrapping); the two masks are the same condition; the sum over 8192 lanes with lane 0 masked is
  the sum over the 8191 steps. Only commutative-monoid laws of the extended reals and a * 0 = 0, a * 1 = a are used.
-/
import Idealize.ShloMosaic.PureOps.Ideal.Laws
import Idealize.ShloMosaic.Lib.IdealHost
import Idealize.ShloMosaic.Lib.StableHlo.Predicate
import Idealize.ShloMosaic.Lib.ValueIdx

noncomputable section

namespace Cert.RowLoss

open Idealize.ShloMosaic Idealize.ShloMosaic.StableHlo.Predicate

/-- How many entries of the row are not zero. -/
def cnt (row : Fin 8192 → EReal) : ℕ := (Finset.univ.filter fun q : Fin 8192 => row q ≠ 0).card

theorem cnt_le (row : Fin 8192 → EReal) : cnt row ≤ 8192 := by
  unfold cnt
  exact (Finset.card_le_univ _).trans (by simp)

/-- The k-th step of the row: |x (k+1) - x k|, the absolute value as max a (-a). -/
def step (row : Fin 8192 → EReal) (k : Fin 8191) : EReal :=
  max (row k.succ - row k.castSucc) (-(row k.succ - row k.castSucc))

/-- The steps before the count, summed. -/
def msum (row : Fin 8192 → EReal) : EReal := ∑ k : Fin 8191, if k.val + 1 < cnt row then step row k else 0

/-- The row's loss. -/
def rowLoss (row : Fin 8192 → EReal) : EReal := Ideal.div (msum row) ((cnt row : ℝ) : EReal)

/-- A finite sum of reals, each read as an extended real, is the real sum read as one. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A one-bit flag widened to a word reads, as a signed integer, 1 when set and 0 when clear. -/
theorem toInt_bit (b : Bool) : ((BitVec.ofBool b).setWidth 32).toInt = if b then 1 else 0 := by cases b <;> rfl

/-- The flag "a is not zero", widened and converted to a float, is 1 or 0. -/
theorem nz_flag (a : EReal) :
    ((((Ideal.cmp .one a (Ideal.ofBits .f32 0x00000000#32)).setWidth 32).toInt : ℝ) : EReal) = ((if a ≠ 0 then 1 else 0 : ℝ) : EReal) := by
  rw [Ideal.ofBits_zero_f32]
  show ((((BitVec.ofBool (decide (a ≠ 0))).setWidth 32).toInt : ℝ) : EReal) = _
  rw [toInt_bit]
  by_cases h : a ≠ 0 <;> simp [h]

/-- The float count of a row: the sum of its 8192 flags is n. -/
theorem len_eq (row : Fin 8192 → EReal) :
    ∑ q : Fin 8192, ((((Ideal.cmp .one (row q) (Ideal.ofBits .f32 0x00000000#32)).setWidth 32).toInt : ℝ) : EReal) = ((cnt row : ℝ) : EReal) := by
  simp only [nz_flag]
  rw [coe_sum, Finset.sum_boole]
  rfl

/-- The lane mask "1 <= q and q < n" taken by float comparisons of the lane number against 1.0 and against the float
    count, the two flags and-ed, widened and converted: 1 or 0 by that condition on the naturals. -/
theorem mask_flag (n q : ℕ) (hq : q < 8192) :
    (((((Ideal.cmp .oge ((((BitVec.ofNat 32 q).toInt : ℝ)) : EReal) (Ideal.ofBits .f32 0x3F800000#32))
        &&& (Ideal.cmp .olt ((((BitVec.ofNat 32 q).toInt : ℝ)) : EReal) ((n : ℝ) : EReal))).setWidth 32).toInt : ℝ) : EReal)
      = ((if 1 ≤ q ∧ q < n then 1 else 0 : ℝ) : EReal) := by
  rw [Ideal.ofBits_one_f32, toInt_ofNat_small q (by omega)]
  show (((((BitVec.ofBool (decide ((1 : EReal) ≤ ((((q : ℕ) : ℤ) : ℝ) : EReal))))
      &&& (BitVec.ofBool (decide (((((q : ℕ) : ℤ) : ℝ) : EReal) < ((n : ℝ) : EReal))))).setWidth 32).toInt : ℝ) : EReal) = _
  have h1 : decide ((1 : EReal) ≤ ((((q : ℕ) : ℤ) : ℝ) : EReal)) = decide (1 ≤ q) := by
    apply decide_eq_decide.mpr
    rw [← EReal.coe_one, EReal.coe_le_coe_iff]
    push_cast
    exact Nat.one_le_cast
  have h2 : decide (((((q : ℕ) : ℤ) : ℝ) : EReal) < ((n : ℝ) : EReal)) = decide (q < n) := by
    apply decide_eq_decide.mpr
    rw [EReal.coe_lt_coe_iff]
    push_cast
    exact Nat.cast_lt
  rw [h1, h2]
  have hand : ∀ a b : Bool, BitVec.ofBool a &&& BitVec.ofBool b = BitVec.ofBool (a && b) := by decide
  rw [hand, toInt_bit]
  by_cases c1 : 1 ≤ q <;> by_cases c2 : q < n <;> simp [c1, c2]

/-- The sum over all 8192 lanes of d q times the lane mask is the sum over the 8191 steps k of d (k + 1) where
    k + 1 < n: lane 0 is masked (a * 0 = 0), lane k + 1 is kept or dropped by k + 1 < n (a * 1 = a). -/
theorem masked_sum (d : Fin 8192 → EReal) (n : ℕ) :
    ∑ q : Fin 8192, d q * ((if 1 ≤ q.val ∧ q.val < n then 1 else 0 : ℝ) : EReal)
      = ∑ k : Fin 8191, if k.val + 1 < n then d k.succ else 0 := by
  rw [Fin.sum_univ_succ]
  simp only [Fin.val_zero, Fin.val_succ]
  rw [if_neg (by omega), EReal.coe_zero, mul_zero, zero_add]
  refine Finset.sum_congr rfl fun k _ => ?_
  by_cases h : k.val + 1 < n
  · rw [if_pos ⟨by omega, h⟩, if_pos h, EReal.coe_one, mul_one]
  · rw [if_neg (fun hh => h hh.2), if_neg h, EReal.coe_zero, mul_zero]

/-- The word comparison "1 + k < n, signed" against a count word of value n <= 8192 selects by k + 1 < n. -/
theorem sel_flag (Lw : BitVec 32) (n : ℕ) (hL : Lw.toNat = n) (hn : n ≤ 8192) (k : Fin 8191) (a b : EReal) :
    Scalar.select (IntOp.cmpi .slt (IntOp.addi 1#32 (BitVec.ofNat 32 k.val)) Lw) a b = if k.val + 1 < n then a else b := by
  have hk := k.isLt
  have hs : (IntOp.addi 1#32 (BitVec.ofNat 32 k.val)).toNat = k.val + 1 := by
    show (1#32 + BitVec.ofNat 32 k.val).toNat = _
    rw [BitVec.toNat_add, BitVec.toNat_ofNat]
    simp only [BitVec.toNat_ofNat]
    omega
  have hiff := slt_iff_toNat (a := IntOp.addi 1#32 (BitVec.ofNat 32 k.val)) (b := Lw) (by rw [hs]; omega) (by rw [hL]; omega)
  by_cases h : k.val + 1 < n
  · rw [if_pos h, hiff.mpr (by rw [hs, hL]; exact h), ValueIdx.select_one]
  · have hz : IntOp.cmpi .slt (IntOp.addi 1#32 (BitVec.ofNat 32 k.val)) Lw = 0#1 :=
      ValueIdx.eq_zero_of_ne_one (fun e => h (by have := hiff.mp e; rwa [hs, hL] at this))
    rw [if_neg h, hz, ValueIdx.select_zero]

end Cert.RowLoss

end
-- ==== Proof.RefRow.lean ====
/-
  The reference's per-row quotient, read at a row.

  The reference counts each row's entries that are not zero in 32-bit words (a sum of widened flags that cannot wrap:
  at most 8192 ones), takes |x[:, 1:] - x[:, :-1]|, keeps the k-th difference where the word 1 + k is below the row's
  count (signed, both far below 2^31), sums the 8191 kept differences from 0.0, and divides by the count converted to a
  float. Read at row r this is the row's loss (RowSpec.lean's rowLoss) of row r of the argument.
-/
import proofs.«423316_j69337952027144_3_alg».proof.Proof.RefRead
import proofs.«423316_j69337952027144_3_alg».proof.Proof.RowSpec
import Idealize.ShloMosaic.Lib.ValueIdx
import Idealize.ShloMosaic.Lib.StableHlo.Predicate
import Idealize.ShloMosaic.PureOps.Ideal.Laws

noncomputable section

namespace Cert.ReferenceIdeal.RowValue

open Idealize.ShloMosaic Idealize.ShloMosaic.ValueIdx Idealize.ShloMosaic.StableHlo.Predicate
open Cert.ReferenceIdeal Cert.ReferenceIdeal.Gen Cert.ReferenceIdeal.ReadP Cert.RowLoss

/-- (row, column) spelt either way is one index. -/
theorem ij_eq_ix2 {n m : Nat} (p : Fin n) (q : Fin m) : ij p q = ix2 p q := by
  funext b; match b with | ⟨0, _⟩ => rfl | ⟨1, _⟩ => rfl

/-- The flag the reference sums is set exactly where the argument is not zero. -/
theorem flag_iff (x : (⟨S4096x8192, .f32⟩ : BufTy).Contents (Elt Ideal)) (i : S4096x8192.Idx) :
    val_main_v1 (F := Ideal) x i = 1#1 ↔ x i ≠ 0 := by
  rw [val_main_v1_apply, val_main_v0_apply]
  show BitVec.ofBool (decide (x i ≠ Ideal.ofBits .f32 0x00000000#32)) = 1#1 ↔ _
  rw [Ideal.ofBits_zero_f32, ofBool_eq_one_iff, decide_eq_true_eq]

/-- THE COUNT WORD of row r has the value n, the number of entries of the row that are not zero. -/
theorem count_word (x : (⟨S4096x8192, .f32⟩ : BufTy).Contents (Elt Ideal)) (r : Fin 4096) :
    (val_main_v3 (F := Ideal) x (ix1 r)).toNat = cnt (fun q => x (ix2 r q)) := by
  unfold val_main_v3 val_main_v2 val_main_c
  rw [toNat_reduce_count_cols (by decide) (val_main_v1 (F := Ideal) x) natLt_1_32 reducesTo_S4096x8192_S4096_d1 h_S_ (ix1 r)]
  unfold cnt
  refine congrArg Finset.card (Finset.filter_congr fun q _ => ?_)
  show val_main_v1 (F := Ideal) x (ij r q) = 1#1 ↔ _
  rw [ij_eq_ix2, flag_iff]

/-- The count converted to a float is n. -/
theorem den_at (x : (⟨S4096x8192, .f32⟩ : BufTy).Contents (Elt Ideal)) (r : Fin 4096) :
    val_main_v18 (F := Ideal) x (ix1 r) = ((cnt (fun q => x (ix2 r q)) : ℝ) : EReal) := by
  have hn := count_word x r
  have hle := cnt_le (fun q => x (ix2 r q))
  show ((((val_main_v3 (F := Ideal) x (ix1 r)).toInt : ℝ)) : EReal) = _
  rw [toInt_eq_toNat_of_lt (by rw [hn]; omega), hn, Int.cast_natCast]

/-- The k-th kept difference of row r: the k-th step where k + 1 < n, else zero. -/
theorem term_at (x : (⟨S4096x8192, .f32⟩ : BufTy).Contents (Elt Ideal)) (r : Fin 4096) (k : Fin 8191) :
    val_main_v16 (F := Ideal) x (idx_main_v17 (ix1 r) k)
      = if k.val + 1 < cnt (fun q => x (ix2 r q)) then step (fun q => x (ix2 r q)) k else 0 := by
  have hn := count_word x r
  have hle := cnt_le (fun q => x (ix2 r q))
  rw [val_main_v16_apply, val_main_v15_apply, val_main_v13_apply, val_main_v11_apply, val_main_v10_apply, val_main_v9_apply,
    val_main_v14_apply, val_main_v12_apply, val_main_v7_apply, val_main_v6_apply, val_main_v4_apply, val_main_v5_apply,
    val_main_call0_v1_apply]
  have hidx : idx_main_v12 (idx_main_v14 (idx_main_v17 (ix1 r) k)) = ix1 r :=
    funext fun a => Fin.ext (by match a with | ⟨0, _⟩ => rfl)
  have h4 : idx_main_v4 (idx_main_v17 (ix1 r) k) = ix2 r k.succ :=
    funext fun a => Fin.ext (by
      match a with
      | ⟨0, _⟩ => rfl
      | ⟨1, _⟩ => show 1 + k.val = k.val + 1; omega)
  have h5 : idx_main_v5 (idx_main_v17 (ix1 r) k) = ix2 r k.castSucc :=
    funext fun a => Fin.ext (by match a with | ⟨0, _⟩ => rfl | ⟨1, _⟩ => rfl)
  rw [hidx, h4, h5]
  show Scalar.select (IntOp.cmpi .slt (IntOp.addi 1#32 (BitVec.ofNat 32 k.val)) (val_main_v3 (F := Ideal) x (ix1 r)))
    (max (x (ix2 r k.succ) - x (ix2 r k.castSucc)) (-(x (ix2 r k.succ) - x (ix2 r k.castSucc)))) (Ideal.ofBits .f32 0x00000000#32) = _
  rw [sel_flag _ _ hn hle, Ideal.ofBits_zero_f32]
  rfl

/-- The sum of the kept differences of row r, from 0.0. -/
theorem num_at (x : (⟨S4096x8192, .f32⟩ : BufTy).Contents (Elt Ideal)) (r : Fin 4096) :
    val_main_v17 (F := Ideal) x (ix1 r) = msum (fun q => x (ix2 r q)) := by
  rw [val_main_v17_apply, show val_main_cst_2 (F := Ideal) (Shape.Idx.first h_S_) = 0 from Ideal.ofBits_zero_f32, zero_add]
  exact Finset.sum_congr rfl fun k _ => term_at x r k

/-- THE REFERENCE'S QUOTIENT AT A ROW is the loss of that row of the argument. -/
theorem row_at (x : (⟨S4096x8192, .f32⟩ : BufTy).Contents (Elt Ideal)) (r : Fin 4096) :
    val_main_v19 (F := Ideal) x (ix1 r) = rowLoss (fun q => x (ix2 r q)) := by
  rw [val_main_v19_apply, num_at, den_at]
  rfl

end Cert.ReferenceIdeal.RowValue

end
-- ==== Proof.LibKeepdims.lean ====
/-
  A reduction along the rows of a matrix kept as a column (`keepdims=True`) and spread back over the matrix, read at
  an index. A row reduction of an `[a, b]` matrix is an `[a]` vector; `keepdims` casts it to a column `[a, 1]`, and
  the arithmetic that follows broadcasts the column to `[a, b]`. Read at `(p, c)` the result is the vector at `p`,
  whatever the column `c`. Beside that: the index a row reduction inserts — the reduced index `p` with the column
  `k` put back on axis 1 — is `(p, k)`. General in the extents and in the element type; nothing here depends on a
  kernel.
-/
import Idealize.ShloMosaic.Lib.Pipeline.Value
import Idealize.ShloMosaic.Lib.ValueIdx
import Idealize.ShloMosaic.PureOps.Reduce

namespace Idealize.ShloMosaic.Keepdims

open Idealize.ShloMosaic Idealize.ShloMosaic.ValueIdx

variable {α : Type}

/-- An `[a]` vector cast to the column `[a, 1]` reads, at `(p, u)`, the vector at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and spread over the matrix reads, at `(p, c)`, the vector at `p`. -/
theorem keepdims_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The index a reduction along the rows inserts: the reduced index `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

end Idealize.ShloMosaic.Keepdims
-- ==== Proof.KernelRow.lean ====
/-
  The kernel body's one store, read at a row of its block.

  The body loads a block x0 of 256 rows by 8192 lanes and stores a 256 by 1 column. Named here are the pieces of that
  column's payload: the 0/1 flags "x0 is not zero" as floats (nzf), their sum along each row (lenv) kept as a column
  (lencol), the absolute difference of the block and the block rotated by one lane (diffs: lane q meets lane q - 1, lane 0
  meets lane 8191), the lane number as a float (lane), the 0/1 mask "1 <= lane and lane < count" (maskf), and the row sums
  of diffs * maskf (sumv); the payload is sumv / lencol. Each piece is then read at (p, q) from the block at row p, and
  the payload at (p, 0) is found to be the row's loss (RowSpec.lean's rowLoss) of row p of the block.
-/
import proofs.«423316_j69337952027144_3_alg».proof.Proof.Gen.KernelIdeal.Skeleton
import proofs.«423316_j69337952027144_3_alg».proof.Proof.LibKeepdims
import proofs.«423316_j69337952027144_3_alg».proof.Proof.RowSpec
import Idealize.ShloMosaic.Lib.ValueIdx
import Idealize.ShloMosaic.Lib.Pipeline.Value
import Idealize.ShloMosaic.Lib.KernelVsHost
import Idealize.ShloMosaic.PureOps.Ideal.Laws

noncomputable section

namespace Cert.KernelIdeal.RowValue

open Idealize.ShloMosaic Idealize.ShloMosaic.ValueIdx Idealize.ShloMosaic.Keepdims Cert.KernelIdeal Cert.KernelIdeal.Gen
open Cert.RowLoss

/-! ## The payload's pieces -/

variable {F : FTy → Type} [FloatOps F]

/-- 1.0 where the block is not zero, else 0.0. -/
def nzf (x0 : Vec F S256x8192 .f32) : FVec F S256x8192 .f32 :=
  sitofp .f32 (extui 32 (cmpf .one x0 (broadcast S256x8192 (Scalar.ofBits .f32 0x00000000#32))) natLt_1_32)

/-- Each row's count of entries that are not zero, as a float. -/
def lenv (x0 : Vec F S256x8192 .f32) : FVec F S256 .f32 :=
  multiReduction .add [1] S256 (nzf x0) 0x00000000#32 reduces_S256x8192_S256 (.inl rfl) rfl

/-- The counts kept as a column. -/
def lencol (x0 : Vec F S256x8192 .f32) : FVec F S256x1 .f32 := shapeCast S256x1 (lenv x0) shapeCasts_S256_S256x1

/-- |x0 - (x0 rotated by one lane)|. -/
def diffs (x0 : Vec F S256x8192 .f32) : FVec F S256x8192 .f32 :=
  absf (subf x0 (dynamicRotate 1 1#32 none x0 rotates_S256x8192_d1))

/-- The lane number as a float. -/
def lane : FVec F S256x8192 .f32 := sitofp .f32 (iota .tc S256x8192 32 [1] iota_S256x8192_d1_w32)

/-- 1.0 where 1 <= lane and lane < the row's count, else 0.0. -/
def maskf (x0 : Vec F S256x8192 .f32) : FVec F S256x8192 .f32 :=
  sitofp .f32 (extui 32 (andi (cmpf .oge (lane (F := F)) (broadcast S256x8192 (Scalar.ofBits .f32 0x3F800000#32)))
    (cmpf .olt (lane (F := F)) (broadcastTo S256x8192 (lencol x0) broadcasts_S256x1_S256x8192))) natLt_1_32)

/-- Each row's sum of the masked differences. -/
def sumv (x0 : Vec F S256x8192 .f32) : FVec F S256 .f32 :=
  multiReduction .add [1] S256 (mulf (diffs x0) (maskf x0)) 0x00000000#32 reduces_S256x8192_S256 (.inl rfl) rfl

/-- The payload is the masked sums over the counts. -/
theorem pay_eq (x0 : Vec F S256x8192 .f32) :
    k0_pay1 x0 = divf (shapeCast S256x1 (sumv x0) shapeCasts_S256_S256x1) (lencol x0) := rfl

/-! ## The pieces at an index -/

/-- The lane before q, around the end: q - 1, and 8191 for q = 0. -/
def prev (q : Fin 8192) : Fin 8192 := ⟨(q.val + 8191) % 8192, Nat.mod_lt _ (by decide)⟩

theorem prev_succ (k : Fin 8191) : prev k.succ = k.castSucc := by
  apply Fin.ext
  show (k.val + 1 + 8191) % 8192 = k.val
  have := k.isLt
  omega

theorem nzf_at (x0 : Vec Ideal S256x8192 .f32) (p : Fin 256) (q : Fin 8192) :
    nzf x0 (ix2 p q) = ((((Ideal.cmp .one (x0 (ix2 p q)) (Ideal.ofBits .f32 0x00000000#32)).setWidth 32).toInt : ℝ) : EReal) := rfl

/-- A row sum of a 256 by 8192 block at row p is the sum over the 8192 lanes. -/
theorem rowsum_at (v : FVec Ideal S256x8192 .f32) (hφ : FKind.Formats .f32) (hacc : (0x00000000#32 : BitVec 32) = 0x00000000#32) (p : Fin 256) :
    multiReduction .add [1] S256 v 0x00000000#32 reduces_S256x8192_S256 hφ hacc (ix1 p) = ∑ q : Fin 8192, v (ix2 p q) :=
  (Ideal.multiReduction_add_single v 0x00000000#32 reduces_S256x8192_S256 hφ hacc (ix1 p)).trans
    (Finset.sum_congr rfl fun k _ => congrArg v (lift_row reduces_S256x8192_S256 p k))

theorem lenv_at (x0 : Vec Ideal S256x8192 .f32) (p : Fin 256) : lenv x0 (ix1 p) = ((cnt (fun q => x0 (ix2 p q)) : ℝ) : EReal) :=
  (rowsum_at (nzf x0) (.inl rfl) rfl p).trans (len_eq (fun q => x0 (ix2 p q)))

theorem lencol_at (x0 : Vec Ideal S256x8192 .f32) (p : Fin 256) (u : Fin 1) : lencol x0 (ix2 p u) = lenv x0 (ix1 p) :=
  shapeCast_a_a1_apply _ _ p u

theorem diffs_at (x0 : Vec Ideal S256x8192 .f32) (p : Fin 256) (q : Fin 8192) :
    diffs x0 (ix2 p q) = max (x0 (ix2 p q) - x0 (ix2 p (prev q))) (-(x0 (ix2 p q) - x0 (ix2 p (prev q)))) := by
  have hr : dynamicRotate 1 1#32 none x0 rotates_S256x8192_d1 (ix2 p q) = x0 (ix2 p (prev q)) :=
    dynamicRotate_apply (1 : Fin 2) 1#32 x0 rotates_S256x8192_d1 (ix2 p q) (ix2 p (prev q)) (fun b => by
      match b with
      | ⟨0, _⟩ => rfl
      | ⟨1, _⟩ =>
        show (q.val + 8191) % 8192 = (q.val + 8192 - 1 % 8192) % 8192
        have : q.val + 8192 - 1 % 8192 = q.val + 8191 := by omega
        rw [this])
  show max (x0 (ix2 p q) - dynamicRotate 1 1#32 none x0 rotates_S256x8192_d1 (ix2 p q))
      (-(x0 (ix2 p q) - dynamicRotate 1 1#32 none x0 rotates_S256x8192_d1 (ix2 p q))) = _
  rw [hr]

theorem lane_at (p : Fin 256) (q : Fin 8192) : lane (F := Ideal) (ix2 p q) = ((((BitVec.ofNat 32 q.val).toInt : ℝ)) : EReal) := by
  show ((((iota .tc S256x8192 32 [1] iota_S256x8192_d1_w32 (ix2 p q)).toInt : ℝ)) : EReal) = _
  rw [iota_single_apply]

theorem maskf_at (x0 : Vec Ideal S256x8192 .f32) (p : Fin 256) (q : Fin 8192) :
    maskf x0 (ix2 p q) = ((if 1 ≤ q.val ∧ q.val < cnt (fun q => x0 (ix2 p q)) then 1 else 0 : ℝ) : EReal) := by
  have hb : broadcastTo S256x8192 (lencol x0) broadcasts_S256x1_S256x8192 (ix2 p q) = lenv x0 (ix1 p) :=
    keepdims_apply (lenv x0) shapeCasts_S256_S256x1 broadcasts_S256x1_S256x8192 p q
  show (((((Ideal.cmp .oge (lane (F := Ideal) (ix2 p q)) (Ideal.ofBits .f32 0x3F800000#32))
      &&& (Ideal.cmp .olt (lane (F := Ideal) (ix2 p q)) (broadcastTo S256x8192 (lencol x0) broadcasts_S256x1_S256x8192 (ix2 p q)))).setWidth 32).toInt : ℝ) : EReal) = _
  rw [hb, lenv_at, lane_at]
  exact mask_flag _ q.val q.isLt

/-- THE PAYLOAD AT A ROW: row p of the stored column is the loss of row p of the block. -/
theorem pay_at (x0 : Vec Ideal S256x8192 .f32) (p : Fin 256) (u : Fin 1) :
    k0_pay1 (F := Ideal) x0 (ix2 p u) = rowLoss (fun q => x0 (ix2 p q)) := by
  rw [pay_eq]
  show Ideal.div (shapeCast S256x1 (sumv x0) shapeCasts_S256_S256x1 (ix2 p u)) (lencol x0 (ix2 p u)) = _
  rw [shapeCast_a_a1_apply, lencol_at, lenv_at]
  unfold rowLoss msum
  refine congrArg (fun s => Ideal.div s _) ?_
  refine (rowsum_at (mulf (diffs x0) (maskf x0)) (.inl rfl) rfl p).trans ?_
  have hd : ∀ q : Fin 8192, mulf (diffs x0) (maskf x0) (ix2 p q)
      = (fun q => max (x0 (ix2 p q) - x0 (ix2 p (prev q))) (-(x0 (ix2 p q) - x0 (ix2 p (prev q))))) q
        * ((if 1 ≤ q.val ∧ q.val < cnt (fun q => x0 (ix2 p q)) then 1 else 0 : ℝ) : EReal) := fun q => by
    show diffs x0 (ix2 p q) * maskf x0 (ix2 p q) = _
    rw [diffs_at, maskf_at]
  simp only [hd]
  rw [masked_sum]
  refine Finset.sum_congr rfl fun k _ => ?_
  show (if k.val + 1 < _ then max (x0 (ix2 p k.succ) - x0 (ix2 p (prev k.succ))) (-(x0 (ix2 p k.succ) - x0 (ix2 p (prev k.succ)))) else 0) = _
  rw [prev_succ]
  rfl

end Cert.KernelIdeal.RowValue

end
-- ==== Proof.KernelArray.lean ====
/-
  The kernel's result column after the run, as one function of the argument array.

  The grid has 16 points; point t loads rows 256 t .. 256 t + 255 of the 4096 by 8192 argument (all 8192 lanes) and
  writes back rows 256 t .. 256 t + 255 of the 4096 by 1 result. What it writes at row p of its block is the loss of
  row p of the block it loaded, which is row 256 t + p of the argument: so every point writes back a block of the ONE
  column colLoss x, "row r holds the loss of row r of x", and the 16 blocks tile the column.
-/
import proofs.«423316_j69337952027144_3_alg».proof.Proof.Gen.KernelIdeal.Frame
import proofs.«423316_j69337952027144_3_alg».proof.Proof.KernelRow
import Idealize.ShloMosaic.Lib.Pipeline.Value

set_option maxRecDepth 16384

noncomputable section

namespace Cert.KernelIdeal.ArrayValue

open Idealize.ShloMosaic Idealize.ShloMosaic.TcCoe Idealize.ShloMosaic.ValueIdx Idealize.SL.Sem
open Cert.KernelIdeal Cert.KernelIdeal.Gen Cert.KernelIdeal.RowValue Cert.RowLoss
open Idealize.ShloMosaic.Pipeline (Dat)

variable (m : (ℓ : Loc nD τ sig) → Buf (Elt Ideal) ℓ) (ρ : Dev nD → PrngReg)

/-- The column of row losses of a 4096 by 8192 array. -/
def colLoss (x : S4096x8192.Idx → EReal) : S4096x1.Idx → EReal := fun i => rowLoss (fun q => x (ix2 (i 0) q))

theorem hz : (![0, 0] : Fin 2 → Nat) = fun _ => 0 := funext fun a => by fin_cases a <;> rfl

/-- The body's store at any index of its block, from the block it loaded. -/
theorem pay_row (x0 : Vec Ideal S256x8192 .f32) (j : S256x1.Idx) : k0_pay1 (F := Ideal) x0 j = rowLoss (fun q => x0 (ix2 (j 0) q)) := by
  obtain ⟨p, u, rfl⟩ : ∃ (p : Fin 256) (u : Fin 1), j = ix2 p u := ⟨j 0, j 1, eq_ix2 j⟩
  exact pay_at x0 p u

/-- The printed index maps over the grid: both windows move down the rows together, the input takes all lanes, the
    output's one column is column 0. -/
theorem idx_facts : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) ≤ 15 :=
  (by decide +kernel : ∀ t : Fin grid0.N, _)

/-- Every block of rows is some point's. -/
theorem idx_onto : ∀ (b : Fin 16), ∃ t : Fin cfg0.N, win0_1.index t = ![b.val, 0] :=
  (by decide +kernel : ∀ (b : Fin 16), ∃ t : Fin grid0.N, win0_1.index t = ![b.val, 0])

/-- WHAT POINT t WRITES BACK is block t of the column of row losses of the argument as the region finds it. -/
theorem flushed_eq (c : Dev nD) (t : Fin cfg0.N) :
    (dats m 0 c).flushed 1 t = ((cfg0.win 1).blk t).view.read (Elt Ideal) (colLoss (V m c main_arg0)) := by
  show (cfg0.win 1).cut (grid0.coords t) ((dats m 0 c).after 1 t) = _
  rw [after0_1]
  unfold out0_1
  rw [View.canon_unit_zero hz]
  simp only [View.ld_unit_zero (S := S256x8192) hz]
  obtain ⟨e0, e1, e2, e3⟩ := idx_facts t
  funext j
  show k0_pay1 (F := Ideal) (iblk m c 0 t) j = rowLoss (fun q => V m c main_arg0 (ix2 ((((cfg0.win 1).blk t).view.emb j) 0) q))
  refine (pay_row (iblk m c 0 t) j).trans (congrArg rowLoss (funext fun q => ?_))
  show V m c main_arg0 (((cfg0.win 0).blk t).view.emb (ix2 (j 0) q)) = V m c main_arg0 (ix2 ((((cfg0.win 1).blk t).view.emb j) 0) q)
  refine congrArg (V m c main_arg0) (funext fun a => Fin.ext ?_)
  match a with
  | ⟨0, _⟩ =>
    show win0_0.index t (0 : Fin 2) * 256 + 1 * (j 0).val = win0_1.index t (0 : Fin 2) * 256 + 1 * (j 0).val
    rw [e0]
  | ⟨1, _⟩ =>
    show win0_0.index t (1 : Fin 2) * 8192 + 1 * q.val = q.val
    rw [e1]; omega

/-- An index of the column is in point t's block iff its row is among the block's 256 and its column is column 0. -/
theorem mem_blk (t : Fin cfg0.N) (i : S4096x1.Idx) :
    i ∈ ((cfg0.win 1).blk t).view.set ↔ ∀ a : Fin 2, win0_1.index t a * S256x1.size a ≤ (i a).val ∧ (i a).val < win0_1.index t a * S256x1.size a + S256x1.size a := by
  show i ∈ ((View.whole main_v0).slice (win0_1.rect t)).set ↔ _
  rw [View.set_slice_whole, Rect.mem_set_unit]
  exact Iff.rfl

/-- The 16 blocks cover the column: row r is in the block of point r / 256. -/
theorem cover (i : S4096x1.Idx) : ∃ t : Fin cfg0.N, (cfg0.win 1).flush t = true ∧ i ∈ ((cfg0.win 1).blk t).view.set := by
  have hi0 : (i 0).val < 4096 := (i 0).isLt
  have hi1 : (i 1).val < 1 := (i 1).isLt
  obtain ⟨t, ht⟩ := idx_onto ⟨(i 0).val / 256, by omega⟩
  have q0 : win0_1.index t (0 : Fin 2) = (i 0).val / 256 := congrFun ht 0
  have q1 : win0_1.index t (1 : Fin 2) = 0 := congrFun ht 1
  refine ⟨t, flush0_1 t, ?_⟩
  rw [mem_blk]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 1 ≤ (i 1).val ∧ (i 1).val < win0_1.index t (1 : Fin 2) * 1 + 1; omega

/-- THE RESULT COLUMN after the run is the column of row losses of the argument. -/
theorem final (c : Dev nD) : (dats m 0 c).arrAt 1 cfg0.N = colLoss (m ((c : Thread nD τ).loc main_arg0)) := by
  rw [(dats m 0 c).arrAt_eq_of_cover 1 (colLoss (V m c main_arg0)) (fun t _ => flushed_eq m c t) cover]
  rfl

end Cert.KernelIdeal.ArrayValue

end
-- ==== Proof.KernelRun.lean ====
/-
  The kernel program's result: the host lines after the region, read over the region's result column.

  After the region @main reshapes the 4096 by 1 column to a vector, multiplies it by the 0/1 mask of the rows 1 .. 4095
  (row 0 is skipped), sums the 4096 products from 0.0 and divides by 4096.0. Those lines are one function (finish) of the
  vector; the column the region leaves is the column of row losses of the argument (KernelArray.lean), and reshaped it
  is the vector "entry r is the loss of row r". So the program ends with its result at finish of that vector.
-/
import proofs.«423316_j69337952027144_3_alg».proof.Proof.KernelArray
import Idealize.ShloMosaic.Lib.StableHlo.Run
import Idealize.ShloMosaic.Lib.Pipeline.Value

set_option maxRecDepth 16384

noncomputable section

namespace Cert.KernelIdeal.RunValue

open Idealize.ShloMosaic Idealize.ShloMosaic.TcCoe Idealize.ShloMosaic.ValueIdx Idealize.SL.Sem Idealize.ShloMosaic.StableHlo
open Cert.KernelIdeal Cert.KernelIdeal.Gen Cert.KernelIdeal.ArrayValue Cert.RowLoss

section Tail
variable {F : FTy → Type} [FloatOps F]

/-- 1.0 at the rows 1 .. 4095 and 0.0 at row 0. -/
def rowMask : FVec F S4096 .f32 :=
  uitofp (F := F) .f32 (cmpi .sge (iotaInDim S4096 32 0) (broadcastInDim S4096 ![] bcast_S_S4096 (constantI S_ 32 1#32)))

/-- The lines after the per-row losses: mask row 0, sum from 0.0, divide by 4096.0. -/
def finish (p : FVec F S4096 .f32) : FVec F S_ .f32 :=
  Host.divf (Host.reduceAdd (mulf p rowMask) (constant S_ .f32 0x00000000#32) reducesTo_S4096_S_d0 h_S_) (constant S_ .f32 0x45800000#32)

/-- The result buffer after the lines that follow the region is finish of the reshaped result column. -/
theorem tail_eq (m : (ℓ : Loc nD τ sig) → Buf (Elt F) ℓ) (c : Dev nD) :
    Pipeline.afterTail₀ cfgs (dats m) 0 (V0 m) [hostOps1] c main_v8
      = finish (shapeCast S4096 (Pipeline.withArrays spec0 c (V0 m c) (fun w => (dats m 0 c).arrAt w cfg0.N) (Proc.devRef .tc main_v0))
          shapeCasts_S4096x1_S4096) := by
  unfold Pipeline.afterTail₀
  show StableHlo.after hostOps1 _ (Proc.devRef .tc main_v8) = _
  after_results
  rfl

end Tail

variable (m : (ℓ : Loc nD τ sig) → Buf (Elt Ideal) ℓ) (ρ : Dev nD → PrngReg)

/-- The vector of row losses of a 4096 by 8192 array. -/
def lossVec (x : S4096x8192.Idx → EReal) : S4096.Idx → EReal := fun i => rowLoss (fun q => x (ix2 (i 0) q))

/-- The column of row losses reshaped to a vector is the vector of row losses. -/
theorem reshape_col (x : S4096x8192.Idx → EReal) : shapeCast S4096 (colLoss x) shapeCasts_S4096x1_S4096 = lossVec x := by
  funext i
  obtain ⟨r, rfl⟩ : ∃ r : Fin 4096, i = ix1 r := ⟨i 0, eq_ix1 i⟩
  exact shapeCast_apply (colLoss x) shapeCasts_S4096x1_S4096 (ix1 r) (ix2 r (0 : Fin 1)) (by
    rw [Shape.rowMajor_val_two, Shape.rowMajor_val_one]
    show r.val * 1 + 0 = r.val
    omega)

/-- THE RESULT BUFFER after the program: finish of the argument's vector of row losses. -/
theorem result_eq (c : Dev nD) :
    Pipeline.afterTail₀ cfgs (dats m) 0 (V0 m) [hostOps1] c main_v8 = finish (F := Ideal) (lossVec (m ((c : Thread nD τ).loc main_arg0))) := by
  have hA : Pipeline.withArrays spec0 c (V0 m c) (fun w => (dats m 0 c).arrAt w cfg0.N) (Proc.devRef .tc main_v0)
      = colLoss (m ((c : Thread nD τ).loc main_arg0)) :=
    (Pipeline.withArrays_arr spec0 launch0.win.arr_inj c _ _ 1).trans (final m c)
  rw [tail_eq, hA, reshape_col]

/-- The result buffer is no window's array and is not scoped: the frame run's post speaks of it. -/
theorem v8_rest : main_v8 ∈ Pipeline.restRefs sig (cfgs 0).spec :=
  Pipeline.mem_restRefs_of main_v8 rfl (by decide)

/-- THE RUN: every weakly fair execution ends with the result at finish of the row losses and the argument unchanged. -/
theorem run : θ_run defs (onTc (τ := τ) (main (F := Ideal))) ⟨m, fun _ => 0, ρ⟩ fun r => ∀ c : Dev nD,
      r.2.mem ((c : Thread nD τ).loc main_v8) = finish (F := Ideal) (lossVec (m ((c : Thread nD τ).loc main_arg0)))
      ∧ r.2.mem ((c : Thread nD τ).loc main_arg0) = m ((c : Thread nD τ).loc main_arg0) :=
  (θ_run defs _ _).mono (fun r h c => ⟨((h c).2 main_v8 v8_rest).trans (result_eq m c),
      ((h c).1 0).trans (((dats m 0 c).arrAt_in 0 rfl _).trans ((A_eq m c 0).trans (V_main_arg0 m c)))⟩)
    (run_main m ρ)

end Cert.KernelIdeal.RunValue

end
-- ==== Proof.lean ====
/-
  The consecutive-difference loss: a Pallas kernel against its jnp reference, equal over the extended reals.

  Both programs take x : f32[4096, 8192]. For each row let n be the number of its entries that are not zero; the row's
  loss is ( sum over k = 0 .. 8190 of [k + 1 < n] * |x (k+1) - x k| ) / n; the result is the sum of the losses of the
  rows 1 .. 4095 (row 0 is masked), from 0.0, divided by 4096.0.
  * The kernel walks 16 blocks of 256 rows. In each it counts in floats, rotates the block by one lane, multiplies the
    8192 absolute differences by the 0/1 mask "1 <= lane and lane < n" and sums them: lane 0 (the difference the rotation
    wraps around the end) is masked, lane k + 1 is the k-th step. Proof/KernelRow.lean reads the stored column at a row,
    Proof/KernelArray.lean the result column after the 16 write-backs, Proof/KernelRun.lean the host lines after the region.
  * The reference counts in 32-bit words (at most 8192 ones: no wrapping), slices the rows into x[:, 1:] and x[:, :-1] and
    selects each of the 8191 steps by the word comparison 1 + k < n. Proof/RefRow.lean reads its per-row quotient.
  * Proof/RowSpec.lean is the mathematics that joins them: both counts are n, both masks are the condition k + 1 < n on
    the naturals, and the sum over 8192 lanes with lane 0 masked is the sum over the 8191 steps (a * 0 = 0, a * 1 = a and
    0 + s = s on the extended reals; no finiteness is needed, so the precondition is not opened).
  Both programs end with the SAME host lines over the per-row losses (mask row 0, sum, divide by 4096.0): one function
  finish, so equal per-row losses give equal results, whatever an all-zero row's 0 / 0 reads as.
  The three frames: the kernel's two are the generated frame certificates; the reference's is its run with the result
  dropped. The idealization rewrote nothing, so preserves is trivial.
-/
import proofs.«423316_j69337952027144_3_alg».proof.Defs
import proofs.«423316_j69337952027144_3_alg».proof.Proof.Gen.Kernel
import proofs.«423316_j69337952027144_3_alg».proof.Proof.Gen.Kernel.Skeleton
import proofs.«423316_j69337952027144_3_alg».proof.Proof.Gen.Kernel.Launch
import proofs.«423316_j69337952027144_3_alg».proof.Proof.Gen.Kernel.Points
import proofs.«423316_j69337952027144_3_alg».proof.Proof.Gen.Kernel.Frame
import proofs.«423316_j69337952027144_3_alg».proof.Proof.Gen.KernelIdeal
import proofs.«423316_j69337952027144_3_alg».proof.Proof.Gen.KernelIdeal.Skeleton
import proofs.«423316_j69337952027144_3_alg».proof.Proof.Gen.KernelIdeal.Launch
import proofs.«423316_j69337952027144_3_alg».proof.Proof.Gen.KernelIdeal.Points
import proofs.«423316_j69337952027144_3_alg».proof.Proof.Gen.KernelIdeal.Frame
import proofs.«423316_j69337952027144_3_alg».proof.Proof.Gen.ReferenceIdeal
import proofs.«423316_j69337952027144_3_alg».proof.Proof.Gen.Pre_finite_inputs
import proofs.«423316_j69337952027144_3_alg».proof.Proof.RefRun
import proofs.«423316_j69337952027144_3_alg».proof.Proof.RefRead
import proofs.«423316_j69337952027144_3_alg».proof.Proof.RefRow
import proofs.«423316_j69337952027144_3_alg».proof.Proof.KernelRun
import Idealize.ShloMosaic.Adequacy
import Idealize.ShloMosaic.Init

noncomputable section

namespace Cert.Proof

open Idealize.ShloMosaic Idealize.ShloMosaic.ValueIdx Idealize.SL.Sem
open Cert.KernelIdeal.RunValue (finish lossVec)

/-- The reference's last lines over its per-row quotients are the kernel program's last lines: one function. -/
theorem ref_finish {F : FTy → Type} [FloatOps F] (x : (⟨Cert.ReferenceIdeal.S4096x8192, .f32⟩ : BufTy).Contents (Elt F)) :
    Cert.ReferenceIdeal.ReadP.val_main_v26 (F := F) x = finish (Cert.ReferenceIdeal.ReadP.val_main_v19 (F := F) x) := rfl

/-- The reference's per-row quotients are the vector of row losses. -/
theorem ref_rows (x : (⟨Cert.ReferenceIdeal.S4096x8192, .f32⟩ : BufTy).Contents (Elt Ideal)) :
    Cert.ReferenceIdeal.ReadP.val_main_v19 (F := Ideal) x = lossVec x := by
  funext i
  obtain ⟨r, rfl⟩ : ∃ r : Fin 4096, i = ix1 r := ⟨i 0, eq_ix1 i⟩
  exact Cert.ReferenceIdeal.RowValue.row_at x r

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunP.run (F := Ideal) m ρ)

/-- Both programs end with finish of the argument's vector of row losses. -/
theorem algebraic : Cert.algebraic_KernelIdeal_ReferenceIdeal := by
  intro m ρ m' ρ' _ hagree
  refine ⟨fun c => finish (F := Ideal) (lossVec (m ((c.tc : Thread Cert.KernelIdeal.nD Cert.KernelIdeal.τ).loc Cert.KernelIdeal.main_arg0))),
    Cert.KernelIdeal.RunValue.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v26_eq, ref_finish, ref_rows, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
